-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x128 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : FVec F S50000x128 .f32) (main_arg2 : IVec S2x1000000 32) (main_arg3 : FVec F S128x256 .f32) (main_arg4 : FVec F S128 .f32) (main_arg5 : FVec F S1x128 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S50000x128 : Shape := ⟨2, ![50000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S128x128 : Shape := ⟨2, ![128, 128]⟩
abbrev S128x1 : Shape := ⟨2, ![128, 1]⟩
abbrev S1007616x128 : Shape := ⟨2, ![1007616, 128]⟩
abbrev S1007616 : Shape := ⟨1, ![1007616]⟩
abbrev S8192x128 : Shape := ⟨2, ![8192, 128]⟩
abbrev S8192 : Shape := ⟨1, ![8192]⟩
abbrev S8192x1 : Shape := ⟨2, ![8192, 1]⟩
abbrev S1x1 : Shape := ⟨2, ![1, 1]⟩

abbrev nBuf : Space → Nat
  | .hbm => 47
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x1000000, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S100000x128, .bf16⟩
  | .hbm, ⟨12, _⟩ => ⟨S50000x128, .bf16⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .bf16⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x128, .bf16⟩
  | .hbm, ⟨31, _⟩ => ⟨S128x128, .f32⟩
  | .hbm, ⟨32, _⟩ => ⟨S128x128, .f32⟩
  | .hbm, ⟨33, _⟩ => ⟨S128x128, .bf16⟩
  | .hbm, ⟨34, _⟩ => ⟨S128x128, .f32⟩
  | .hbm, ⟨35, _⟩ => ⟨S128x128, .f32⟩
  | .hbm, ⟨36, _⟩ => ⟨S128x128, .bf16⟩
  | .hbm, ⟨37, _⟩ => ⟨S128x1, .f32⟩
  | .hbm, ⟨38, _⟩ => ⟨S128x1, .bf16⟩
  | .hbm, ⟨39, _⟩ => ⟨S_, .i32⟩
  | .hbm, ⟨40, _⟩ => ⟨S_, .bf16⟩
  | .hbm, ⟨41, _⟩ => ⟨S1007616x128, .bf16⟩
  | .hbm, ⟨42, _⟩ => ⟨S_, .i32⟩
  | .hbm, ⟨43, _⟩ => ⟨S_, .bf16⟩
  | .hbm, ⟨44, _⟩ => ⟨S1007616x128, .bf16⟩
  | .hbm, ⟨45, _⟩ => ⟨S1007616, .f32⟩
  | .hbm, ⟨46, _⟩ => ⟨S1000000, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S128x1, .bf16⟩
  | .local _ .vmem, ⟨8, _⟩ => ⟨S1, .f32⟩
  | .local _ .vmem, ⟨9, _⟩ => ⟨S8192, .f32⟩
  | .local _ .vmem, ⟨10, _⟩ => ⟨S8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_call0_v0 : Ref sig .tc := ⟨.hbm, 40, rfl⟩
abbrev main_v28 : Ref sig .tc := ⟨.hbm, 41, rfl⟩
abbrev main_c_4 : Ref sig .tc := ⟨.hbm, 42, rfl⟩
abbrev main_call1_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S128x256_S128x128_0_0 : S128x256.Slices ![0, 0] S128x128
  transposes_S128x128_S128x128_1_0 : S128x128.Transposes [1, 0] S128x128
  slices_S128x256_S128x128_0_128 : S128x256.Slices ![0, 128] S128x128
  transposes_S1x128_S128x1_1_0 : S1x128.Transposes [1, 0] S128x1
  pads_S1000000x128_S1007616x128_076160_000 : S1000000x128.Pads (![0, 0] : Fin 2 → Nat) ![7616, 0] ![0, 0] S1007616x128
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S128_S1x128 : S128.ShapeCasts S1x128
  broadcasts_S1x128_S8192x128 : S1x128.Broadcasts S8192x128
  shapeCasts_S1_S1x1 : S1.ShapeCasts S1x1
  broadcasts_S1x1_S8192x1 : S1x1.Broadcasts S8192x1
  shapeCasts_S8192x1_S8192 : S8192x1.ShapeCasts S8192
  inb_S8192_S8192_0 : ∀ a, (![0] : Fin 1 → Nat) a + S8192.size a ≤ S8192.size a
  h_S8192 : 0 < S8192.numel
  slices_S1007616_S1000000_0 : S1007616.Slices ![0] S1000000
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .bf16 = 32 ∨ (Rect.block (s := S1007616x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1007616x128.size a
  hwx0_1 : ∀ i : grid0.Coords, EltTy.bits .bf16 = 32 ∨ (Rect.block (s := S1007616x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .bf16 = 32 ∨ (Rect.block (s := S128x1) S128x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192.size a ≤ S1007616.size a
  hwx0_7 : ∀ i : grid0.Coords, EltTy.bits .f32 = 32 ∨ (Rect.block (s := S1007616) S8192.size (cc0_transform_7 i) (hinb0_7 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_v28) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x1000000, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x128, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S1000000x256, .f32⟩
  | .hbm, ⟨30, _⟩ => ⟨S256x128, .f32⟩
  | .hbm, ⟨31, _⟩ => ⟨S1000000x128, .f32⟩
  | .hbm, ⟨32, _⟩ => ⟨S1x128, .f32⟩
  | .hbm, ⟨33, _⟩ => ⟨S1000000x128, .f32⟩
  | .hbm, ⟨34, _⟩ => ⟨S1000000x128, .f32⟩
  | .hbm, ⟨35, _⟩ => ⟨S_, .f32⟩
  | .hbm, ⟨36, _⟩ => ⟨S1000000x128, .f32⟩
  | .hbm, ⟨37, _⟩ => ⟨S1000000x128, .f32⟩
  | .hbm, ⟨38, _⟩ => ⟨S128x1, .f32⟩
  | .hbm, ⟨39, _⟩ => ⟨S1000000x1, .f32⟩
  | .hbm, ⟨40, _⟩ => ⟨S1x1, .f32⟩
  | .hbm, ⟨41, _⟩ => ⟨S1000000x1, .f32⟩
  | .hbm, ⟨42, _⟩ => ⟨S1000000x1, .f32⟩
  | .hbm, ⟨43, _⟩ => ⟨S1000000x1, .f32⟩
  | .hbm, ⟨44, _⟩ => ⟨S1000000x1, .f32⟩
  | .hbm, ⟨45, _⟩ => ⟨S_, .f32⟩
  | .hbm, ⟨46, _⟩ => ⟨S1000000x1, .f32⟩
  | .hbm, ⟨47, _⟩ => ⟨S1000000x1, .f32⟩
  | .hbm, ⟨48, _⟩ => ⟨S_, .f32⟩
  | .hbm, ⟨49, _⟩ => ⟨S1000000x1, .f32⟩
  | .hbm, ⟨50, _⟩ => ⟨S1000000x1, .f32⟩
  | .hbm, ⟨51, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  transposes_S128x256_S256x128_1_0 : S128x256.Transposes [1, 0] S256x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  transposes_S1x128_S128x1_1_0 : S1x128.Transposes [1, 0] S128x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.EdgeScore.lean ====
/-
  THE SCORE OF ONE EDGE, as a function on the extended reals.

  An edge has a source row zs and a destination row zd, each of 128 entries.  The first layer has 128 units; unit j
  weighs the source entries by ws j and the destination entries by wd j, adds its bias b1 j and keeps the positive
  part.  The second layer weighs the 128 hidden values by w2, adds b2, and the score is the logistic function of that.

      score = logistic ( Σ_j  max ( Σ_k zs k · ws j k  +  Σ_k zd k · wd j k  +  b1 j , 0 ) · w2 j  +  b2 )

  A program that first joins the two rows into one row z of 256 entries and uses one weight row of 256 entries per
  unit computes Σ_{k < 256} z k · w j k instead of the two sums of 128.  A finite sum over 256 = 128 + 128 positions
  is the sum over the first 128 plus the sum over the last 128: this uses only that addition of extended reals is
  commutative and associative, so it needs no finiteness of the entries.
-/
import Idealize.ShloMosaic.PureOps.Ideal
import Mathlib.Algebra.BigOperators.Fin

noncomputable section

open scoped BigOperators

namespace Cert.EdgeScore

open Idealize.ShloMosaic

/-- The hidden value of unit `j`: the positive part of the two weighted sums plus the bias. -/
def hidden (zs zd : Fin 128 → EReal) (ws wd : Fin 128 → Fin 128 → EReal) (b1 : Fin 128 → EReal) (j : Fin 128) : EReal :=
  max (((∑ k : Fin 128, zs k * ws j k) + ∑ k : Fin 128, zd k * wd j k) + b1 j) 0

/-- The score of one edge. -/
def score (zs zd : Fin 128 → EReal) (ws wd : Fin 128 → Fin 128 → EReal) (b1 w2 : Fin 128 → EReal) (b2 : EReal) : EReal :=
  Ideal.logistic ((∑ j : Fin 128, hidden zs zd ws wd b1 j * w2 j) + b2)

/-- A sum over 256 positions is the sum over the first 128 plus the sum over the last 128. -/
theorem sum_halves (f : Fin 256 → EReal) :
    ∑ k : Fin 256, f k = (∑ k : Fin 128, f ⟨k.val, by omega⟩) + ∑ k : Fin 128, f ⟨128 + k.val, by omega⟩ :=
  Fin.sum_univ_add (a := 128) (b := 128) f

/-- The joined row: the source row on the first 128 positions, the destination row on the last 128. -/
def joined (zs zd : Fin 128 → EReal) (k : Fin 256) : EReal :=
  if h : k.val < 128 then zs ⟨k.val, h⟩ else zd ⟨k.val - 128, by omega⟩

/-- The hidden value computed from the joined row against one weight row of 256 entries per unit. -/
theorem hidden_joined (zs zd : Fin 128 → EReal) (w : Fin 128 → Fin 256 → EReal) (b1 : Fin 128 → EReal) (j : Fin 128) :
    max ((∑ k : Fin 256, joined zs zd k * w j k) + b1 j) 0
      = hidden zs zd (fun j k => w j ⟨k.val, by omega⟩) (fun j k => w j ⟨128 + k.val, by omega⟩) b1 j := by
  unfold hidden
  rw [sum_halves]
  have e1 : ∀ k : Fin 128, joined zs zd ⟨k.val, by omega⟩ = zs k := fun k => by
    unfold joined; rw [dif_pos (show (⟨k.val, by omega⟩ : Fin 256).val < 128 from k.isLt)]
  have e2 : ∀ k : Fin 128, joined zs zd ⟨128 + k.val, by omega⟩ = zd k := fun k => by
    unfold joined
    rw [dif_neg (show ¬ (⟨128 + k.val, by omega⟩ : Fin 256).val < 128 from by simp)]
    exact congrArg zd (Fin.ext (by simp))
  simp only [e1, e2]

end Cert.EdgeScore

end
-- ==== Proof.ReferenceScore.lean ====
/-
  THE REFERENCE'S RESULT, ENTRY BY ENTRY, IS THE EDGE SCORE.

  The reference gathers one source row and one destination row per edge, joins them into a row of 256 entries,
  multiplies by the transposed first-layer weights (so unit j sees weight row j of 256 entries), adds the bias, keeps
  the positive part, multiplies by the transposed second-layer weights, adds the second bias, and applies
  1 / (1 + exp (−x)), which on the extended reals is the logistic function.  Entry e of the result is therefore the
  score of the edge whose rows are row e of the two gathered arrays, with the first-layer weights of unit j split
  into their first 128 and last 128 entries.
-/
import proofs.«111208_j46815143526428_1_alg».proof.Proof.Gen.ReferenceIdeal.Read
import proofs.«111208_j46815143526428_1_alg».proof.Proof.EdgeScore
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.EdgeScore

variable (x0 : (⟨S100000x128, .f32⟩ : BufTy).Contents (Elt Ideal)) (x1 : (⟨S50000x128, .f32⟩ : BufTy).Contents (Elt Ideal))
  (x2 : (⟨S2x1000000, .i32⟩ : BufTy).Contents (Elt Ideal)) (x3 : (⟨S128x256, .f32⟩ : BufTy).Contents (Elt Ideal))
  (x4 : (⟨S128, .f32⟩ : BufTy).Contents (Elt Ideal)) (x5 : (⟨S1x128, .f32⟩ : BufTy).Contents (Elt Ideal))
  (x6 : (⟨S1, .f32⟩ : BufTy).Contents (Elt Ideal))

/-- Row `e` of the gathered source rows. -/
abbrev srcRow (e : Fin 1000000) (k : Fin 128) : EReal := val_main_v10 (F := Ideal) x0 x2 (ix2 e k)
/-- Row `e` of the gathered destination rows. -/
abbrev dstRow (e : Fin 1000000) (k : Fin 128) : EReal := val_main_v17 (F := Ideal) x1 x2 (ix2 e k)

/-- Row `e` of the joined array is the source row followed by the destination row. -/
theorem joined_read (e : Fin 1000000) (k : Fin 256) :
    val_main_v18 (F := Ideal) x0 x1 x2 (ix2 e k) = joined (srcRow x0 x2 e) (dstRow x1 x2 e) k := by
  unfold val_main_v18 joined srcRow dstRow
  generalize val_main_v10 (F := Ideal) x0 x2 = A
  generalize val_main_v17 (F := Ideal) x1 x2 = B
  by_cases h : k.val < 128
  · rw [dif_pos h]
    exact concatenate_pair_apply_left 1 A B concatenates_S1000000x128_S1000000x128_S1000000x256_d1 (ix2 e k) rfl
      (ix2 e ⟨k.val, h⟩) (fun b => match b with | ⟨0, _⟩ => rfl | ⟨1, _⟩ => rfl)
  · rw [dif_neg h]
    exact concatenate_pair_apply_right 1 A B concatenates_S1000000x128_S1000000x128_S1000000x256_d1 (ix2 e k) rfl rfl
      (ix2 e ⟨k.val - 128, by omega⟩)
      (fun b hb => match b, hb with | ⟨0, _⟩, _ => rfl | ⟨1, _⟩, hb => absurd rfl hb)
      (by show (k.val - 128) + 128 = k.val; omega)

/-- Entry `(e, j)` after the first layer is the hidden value of unit `j` for edge `e`. -/
theorem hidden_read (e : Fin 1000000) (j : Fin 128) :
    val_main_v24 (F := Ideal) x0 x1 x2 x3 x4 (ix2 e j)
      = hidden (srcRow x0 x2 e) (dstRow x1 x2 e) (fun j k => x3 (ix2 j ⟨k.val, by omega⟩))
          (fun j k => x3 (ix2 j ⟨128 + k.val, by omega⟩)) (fun j => x4 (ix1 j)) j := by
  rw [val_main_v24_apply, val_main_v23_apply, val_main_v20_apply, val_main_v22_apply, val_main_v21_apply,
    val_main_call0_v0_apply, val_main_call0_cst_apply]
  simp only [Ideal.maximumf_def, Ideal.addf_def, Ideal.ofBits_def, Ideal.ofBits_zero_f32]
  rw [← hidden_joined (srcRow x0 x2 e) (dstRow x1 x2 e) (fun j k => x3 (ix2 j k)) (fun j => x4 (ix1 j)) j]
  have hb : idx_main_v21 (idx_main_v22 (ix2 e j)) = ix1 j := funext fun a => match a with | ⟨0, _⟩ => rfl
  rw [hb]
  refine congrArg (fun s => max (s + x4 (ix1 j)) 0) (Finset.sum_congr rfl fun k _ => ?_)
  have hl : lidx_main_v20 (ix2 e j) k = ix2 e k := funext fun a => match a with | ⟨0, _⟩ => rfl | ⟨1, _⟩ => rfl
  have hr : idx_main_v19 (ridx_main_v20 (ix2 e j) k) = ix2 j k := funext fun a => match a with | ⟨0, _⟩ => rfl | ⟨1, _⟩ => rfl
  rw [hl, joined_read, val_main_v19_apply, hr]

/-- Entry `e` of the reference's result is the score of edge `e`. -/
theorem result_read (i : S1000000.Idx) :
    val_main_v36 (F := Ideal) x0 x1 x2 x3 x4 x5 x6 i
      = score (srcRow x0 x2 (i 0)) (dstRow x1 x2 (i 0)) (fun j k => x3 (ix2 j ⟨k.val, by omega⟩))
          (fun j k => x3 (ix2 j ⟨128 + k.val, by omega⟩)) (fun j => x4 (ix1 j)) (fun j => x5 (ix2 0 j)) (x6 (ix1 0)) := by
  obtain ⟨e, rfl⟩ : ∃ e : Fin 1000000, i = ix1 e := ⟨i 0, eq_ix1 i⟩
  rw [val_main_v36_apply, val_main_v35_apply, val_main_v34_apply, val_main_cst_3_apply, val_main_v33_apply,
    val_main_v32_apply, val_main_cst_apply, val_main_v31_apply, val_main_v30_apply, val_main_v29_apply,
    val_main_v26_apply, val_main_v28_apply, val_main_v27_apply]
  simp only [Ideal.hostDivf_def, Ideal.addf_def, Ideal.hostUnary_exp_def, Ideal.hostNegf_def, Ideal.negf_def,
    Ideal.ofBits_def, Ideal.ofBits_one_f32]
  unfold score Ideal.logistic
  refine congrArg (fun v => Ideal.div 1 (1 + Ideal.exp (-v))) ?_
  refine congrArg₂ (· + ·) (Finset.sum_congr rfl fun j _ => ?_) (congrArg x6 ?_)
  · have hl : lidx_main_v26 (idx_main_v36 (ix1 e)) j = ix2 e j := funext fun a => match a with
      | ⟨0, _⟩ => Fin.ext (Nat.div_one _)
      | ⟨1, _⟩ => rfl
    have hr : idx_main_v25 (ridx_main_v26 (idx_main_v36 (ix1 e)) j) = ix2 0 j := funext fun a => match a with
      | ⟨0, _⟩ => rfl
      | ⟨1, _⟩ => rfl
    rw [hl, hidden_read, val_main_v25_apply, hr]
  · exact funext fun a => match a with | ⟨0, _⟩ => rfl

end Cert.ReferenceIdeal.RefValue

end
-- ==== Proof.LibPlainDot.lean ====
/-
  A PLAIN MATRIX PRODUCT READ AT AN INDEX (general lemmas; they mention no program).

  Take dimension numbers of a product [M, K] × [K, N] → [M, N] that contract the left operand's axis 1 with the
  right operand's axis 0, keep the left axis 0 and the right axis 1, and have no batch axes. The contraction index
  set then has one axis of extent K, so it is Fin K; the left operand's index at result index (i, j) and contraction
  position k is (i, k) and the right operand's is (k, j). Hence on the extended reals both the accumulate-into-zero
  product of the vector unit and the host's dot product are, at (i, j), the finite sum over k of l (i, k) · r (k, j).
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of a plain product: contract left axis 1 with right axis 0, keep left axis 0
    and right axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

/-- The host's dot product, at an index. -/
theorem dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Cert.Lib.PlainDot

end
-- ==== Proof.LibColumnCast.lean ====
/-
  A COLUMN READ AS A VECTOR (a general lemma; it mentions no program).

  An array of shape [a, 1] recast to shape [a] keeps its entries in row-major order, and row-major position of (i, 0)
  in [a, 1] is i, the position of i in [a].  So the recast array at i is the column at (i, 0).
-/
import Idealize.ShloMosaic.Lib.Pipeline.Value
import Idealize.ShloMosaic.Lib.ValueIdx

namespace Cert.Lib.ColumnCast

open Idealize.ShloMosaic Idealize.ShloMosaic.ValueIdx

variable {α : Type}

/-- An `[a, 1]` array recast as the vector `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast
-- ==== Proof.KernelPayload.lean ====
/-
  WHAT THE KERNEL BODY STORES, ROW BY ROW, IS THE EDGE SCORE.

  At one grid point the body holds a block of 8192 source rows and a block of 8192 destination rows (128 entries
  each), the two halves of the first-layer weights already transposed (entry (k, j) is the weight of input k for
  unit j), the first bias, the transposed second-layer weights as a column, and the second bias.  It forms
  rows · weights for each half, adds the two products and the bias, keeps the positive part, multiplies by the
  weight column, adds the second bias, applies the logistic function, and stores the resulting column as a vector.
  On the extended reals a matrix product into a zero accumulator is the plain finite sum and a change of float
  format is the identity, so entry r of the stored vector is the score of the edge whose rows are row r of the two
  row blocks.
-/
import proofs.«111208_j46815143526428_1_alg».proof.Proof.Gen.KernelIdeal.Skeleton
import proofs.«111208_j46815143526428_1_alg».proof.Proof.EdgeScore
import proofs.«111208_j46815143526428_1_alg».proof.Proof.LibPlainDot
import proofs.«111208_j46815143526428_1_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.EdgeScore

/-- Both first-layer products contract the rows' entries with the weights' first axis. -/
theorem plain_first : Cert.Lib.PlainDot.Plain dot_S8192x128_S128x128_S8192x128_1_0_0_1_n_n := ⟨rfl, rfl, rfl, rfl, rfl, rfl⟩
/-- So does the second-layer product. -/
theorem plain_second : Cert.Lib.PlainDot.Plain dot_S8192x128_S128x1_S8192x1_1_0_0_1_n_n := ⟨rfl, rfl, rfl, rfl, rfl, rfl⟩

/-- The logistic function of a vector, read at an index. -/
theorem logistic_read {s : Shape} {φ : FTy} (v : FVec Ideal s φ) (i : s.Idx) : logistic v i = Ideal.logistic (v i) := rfl

/-- Entry `r` of the stored vector is the score of row `r` of the two row blocks. -/
theorem payload_read (x0 x1 : Vec Ideal S8192x128 .bf16) (x2 x3 : Vec Ideal S128x128 .bf16) (x4 : Vec Ideal S128 .f32)
    (x5 : Vec Ideal S128x1 .bf16) (x6 : Vec Ideal S1 .f32) (r : Fin 8192) :
    k0_pay1 (F := Ideal) x0 x1 x2 x3 x4 x5 x6 (ix1 r)
      = score (fun k => x0 (ix2 r k)) (fun k => x1 (ix2 r k)) (fun j k => x2 (ix2 k j)) (fun j k => x3 (ix2 k j))
          (fun j => x4 (ix1 j)) (fun j => x5 (ix2 j 0)) (x6 (ix1 0)) := by
  unfold k0_pay1
  rw [Cert.Lib.ColumnCast.shapeCast_a1_a_apply, logistic_read, addf_apply]
  unfold score
  refine congrArg Ideal.logistic (congrArg₂ (· + ·) ?_ ?_)
  · -- the second-layer product at (r, 0)
    refine (Cert.Lib.PlainDot.matmul_zero_apply plain_second none _ _ (ix2 r 0)).trans ?_
    refine Finset.sum_congr rfl fun j _ => congrArg₂ (· * ·) ?_ ?_
    · -- the hidden value of unit j
      show max ((_ + _) + _) _ = _
      unfold Cert.EdgeScore.hidden
      refine congrArg₂ max (congrArg₂ (· + ·) (congrArg₂ (· + ·) ?_ ?_) ?_) ?_
      · refine (Cert.Lib.PlainDot.matmul_zero_apply plain_first none _ _ (ix2 r j)).trans ?_
        refine Finset.sum_congr rfl fun k _ => ?_
        rw [shapeCast_self, shapeCast_self]
      · refine (Cert.Lib.PlainDot.matmul_zero_apply plain_first none _ _ (ix2 r j)).trans ?_
        refine Finset.sum_congr rfl fun k _ => ?_
        rw [shapeCast_self, shapeCast_self]
      · show broadcastTo S8192x128 (shapeCast S1x128 x4 shapeCasts_S128_S1x128) broadcasts_S1x128_S8192x128 (ix2 r j) = x4 (ix1 j)
        rw [broadcastTo_1b_ab_apply, shapeCast_a_1a_apply]
      · show Ideal.ofBits .f32 0x00000000#32 = 0
        exact Ideal.ofBits_zero_f32
    · rw [shapeCast_self]
  · show broadcastTo S8192x1 (shapeCast S1x1 x6 shapeCasts_S1_S1x1) broadcasts_S1x1_S8192x1 (ix2 r 0) = x6 (ix1 0)
    rw [broadcastTo_1b_ab_apply, shapeCast_a_1a_apply]

end Cert.KernelIdeal.BodyValue

end
-- ==== Proof.KernelArray.lean ====
/-
  THE OUTPUT ARRAY OF THE KERNEL REGION, ENTRY BY ENTRY.

  The region runs over 123 grid points.  At point t it reads rows 8192·t … 8192·t + 8191 of the two padded row arrays,
  all of the two weight halves, the biases and the weight column, and writes entries 8192·t … 8192·t + 8191 of the
  output vector.  Each written entry is the score of its own row, so the blocks are restrictions of one function of
  the whole arrays, and since 123 · 8192 = 1 007 616 the 123 blocks cover the output: entry e is written by point
  e / 8192.  Hence after the region the output array holds, at every entry e, the score of row e.
-/
import proofs.«111208_j46815143526428_1_alg».proof.Proof.Gen.KernelIdeal.Frame
import proofs.«111208_j46815143526428_1_alg».proof.Proof.KernelPayload
import Idealize.ShloMosaic.Lib.Pipeline.Value

set_option maxRecDepth 16384

noncomputable section

open scoped BigOperators

namespace Cert.KernelIdeal.ArrayValue

open Cert.KernelIdeal Cert.KernelIdeal.Gen Cert.KernelIdeal.BodyValue Idealize.ShloMosaic Idealize.ShloMosaic.TcCoe Idealize.SL.Sem
open Idealize.ShloMosaic.ValueIdx Cert.EdgeScore
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- Entry `r` of what the body leaves in the output buffer is the score of row `r` of the two row blocks. -/
theorem out_read (x0 x1 : Vec Ideal S8192x128 .bf16) (x2 x3 : Vec Ideal S128x128 .bf16) (x4 : Vec Ideal S128 .f32)
    (x5 : Vec Ideal S128x1 .bf16) (x6 : Vec Ideal S1 .f32) (r : Fin 8192) :
    out0_7 x0 x1 x2 x3 x4 x5 x6 (ix1 r)
      = score (fun k => x0 (ix2 r k)) (fun k => x1 (ix2 r k)) (fun j k => x2 (ix2 k j)) (fun j k => x3 (ix2 k j))
          (fun j => x4 (ix1 j)) (fun j => x5 (ix2 j 0)) (x6 (ix1 0)) := by
  unfold out0_7
  rw [View.canon_unit_zero hz1]
  simp only [View.ld_unit_zero (S := S8192x128) hz2, View.ld_unit_zero (S := S128x128) hz2, View.ld_unit_zero (S := S128) hz1,
    View.ld_unit_zero (S := S128x1) hz2, View.ld_unit_zero (S := S1) hz1]
  exact payload_read x0 x1 x2 x3 x4 x5 x6 r

/-! ## The operand arrays as the region finds them -/

abbrev srcArr (c : Dev nD) : S1007616x128.Idx → EReal := V m c main_v28
abbrev dstArr (c : Dev nD) : S1007616x128.Idx → EReal := V m c main_v29
abbrev w1sArr (c : Dev nD) : S128x128.Idx → EReal := V m c main_v22
abbrev w1dArr (c : Dev nD) : S128x128.Idx → EReal := V m c main_v25
abbrev b1Arr (c : Dev nD) : S128.Idx → EReal := V m c main_arg4
abbrev w2Arr (c : Dev nD) : S128x1.Idx → EReal := V m c main_v27
abbrev b2Arr (c : Dev nD) : S1.Idx → EReal := V m c main_arg6

/-- The score of every row of the padded row arrays. -/
def scores (c : Dev nD) : S1007616.Idx → EReal := fun i =>
  score (fun k => srcArr m c (ix2 (i 0) k)) (fun k => dstArr m c (ix2 (i 0) k)) (fun j k => w1sArr m c (ix2 k j))
    (fun j k => w1dArr m c (ix2 k j)) (fun j => b1Arr m c (ix1 j)) (fun j => w2Arr m c (ix2 j 0)) (b2Arr m c (ix1 0))

/-- The printed index maps over the grid: the row blocks and the output block move with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = t.val :=
  (by decide +kernel : ∀ t : Fin grid0.N, _)

/-! ## Each input block as a part of its array -/

theorem srcBlk_apply (c : Dev nD) (t : Fin cfg0.N) (r : Fin 8192) (k : Fin 128) (e : Fin 1007616)
    (he : e.val = t.val * 8192 + r.val) :
    (iblk m c 0 t : Vec Ideal S8192x128 .bf16) (ix2 r k) = srcArr m c (ix2 e k) := by
  obtain ⟨h0, h1, -⟩ := idx_facts t
  unfold iblk
  rw [View.read_apply]
  show srcArr m c (((cfg0.win 0).blk t).view.emb (ix2 r k)) = srcArr m c (ix2 e k)
  refine congrArg (srcArr m c) (funext fun a => Fin.ext ?_)
  match a with
  | ⟨0, _⟩ => show win0_0.index t (0 : Fin 2) * 8192 + 1 * r.val = e.val; rw [h0, he]; omega
  | ⟨1, _⟩ => show win0_0.index t (1 : Fin 2) * 128 + 1 * k.val = k.val; rw [h1]; omega

theorem dstBlk_apply (c : Dev nD) (t : Fin cfg0.N) (r : Fin 8192) (k : Fin 128) (e : Fin 1007616)
    (he : e.val = t.val * 8192 + r.val) :
    (iblk m c 1 t : Vec Ideal S8192x128 .bf16) (ix2 r k) = dstArr m c (ix2 e k) := by
  obtain ⟨-, -, h0, h1, -⟩ := idx_facts t
  unfold iblk
  rw [View.read_apply]
  show dstArr m c (((cfg0.win 1).blk t).view.emb (ix2 r k)) = dstArr m c (ix2 e k)
  refine congrArg (dstArr m c) (funext fun a => Fin.ext ?_)
  match a with
  | ⟨0, _⟩ => show win0_1.index t (0 : Fin 2) * 8192 + 1 * r.val = e.val; rw [h0, he]; omega
  | ⟨1, _⟩ => show win0_1.index t (1 : Fin 2) * 128 + 1 * k.val = k.val; rw [h1]; omega

theorem w1sBlk_apply (c : Dev nD) (t : Fin cfg0.N) (k j : Fin 128) :
    (iblk m c 2 t : Vec Ideal S128x128 .bf16) (ix2 k j) = w1sArr m c (ix2 k j) := by
  obtain ⟨-, -, -, -, h0, h1, -⟩ := idx_facts t
  unfold iblk
  rw [View.read_apply]
  show w1sArr m c (((cfg0.win 2).blk t).view.emb (ix2 k j)) = w1sArr m c (ix2 k j)
  refine congrArg (w1sArr m c) (funext fun a => Fin.ext ?_)
  match a with
  | ⟨0, _⟩ => show win0_2.index t (0 : Fin 2) * 128 + 1 * k.val = k.val; rw [h0]; omega
  | ⟨1, _⟩ => show win0_2.index t (1 : Fin 2) * 128 + 1 * j.val = j.val; rw [h1]; omega

theorem w1dBlk_apply (c : Dev nD) (t : Fin cfg0.N) (k j : Fin 128) :
    (iblk m c 3 t : Vec Ideal S128x128 .bf16) (ix2 k j) = w1dArr m c (ix2 k j) := by
  obtain ⟨-, -, -, -, -, -, h0, h1, -⟩ := idx_facts t
  unfold iblk
  rw [View.read_apply]
  show w1dArr m c (((cfg0.win 3).blk t).view.emb (ix2 k j)) = w1dArr m c (ix2 k j)
  refine congrArg (w1dArr m c) (funext fun a => Fin.ext ?_)
  match a with
  | ⟨0, _⟩ => show win0_3.index t (0 : Fin 2) * 128 + 1 * k.val = k.val; rw [h0]; omega
  | ⟨1, _⟩ => show win0_3.index t (1 : Fin 2) * 128 + 1 * j.val = j.val; rw [h1]; omega

theorem b1Blk_apply (c : Dev nD) (t : Fin cfg0.N) (j : Fin 128) :
    (iblk m c 4 t : Vec Ideal S128 .f32) (ix1 j) = b1Arr m c (ix1 j) := by
  obtain ⟨-, -, -, -, -, -, -, -, h0, -⟩ := idx_facts t
  unfold iblk
  rw [View.read_apply]
  show b1Arr m c (((cfg0.win 4).blk t).view.emb (ix1 j)) = b1Arr m c (ix1 j)
  refine congrArg (b1Arr m c) (funext fun a => Fin.ext ?_)
  match a with
  | ⟨0, _⟩ => show win0_4.index t (0 : Fin 1) * 128 + 1 * j.val = j.val; rw [h0]; omega

theorem w2Blk_apply (c : Dev nD) (t : Fin cfg0.N) (j : Fin 128) :
    (iblk m c 5 t : Vec Ideal S128x1 .bf16) (ix2 j 0) = w2Arr m c (ix2 j 0) := by
  obtain ⟨-, -, -, -, -, -, -, -, -, h0, h1, -⟩ := idx_facts t
  unfold iblk
  rw [View.read_apply]
  show w2Arr m c (((cfg0.win 5).blk t).view.emb (ix2 j 0)) = w2Arr m c (ix2 j 0)
  refine congrArg (w2Arr m c) (funext fun a => Fin.ext ?_)
  match a with
  | ⟨0, _⟩ => show win0_5.index t (0 : Fin 2) * 128 + 1 * j.val = j.val; rw [h0]; omega
  | ⟨1, _⟩ => show win0_5.index t (1 : Fin 2) * 1 + 1 * 0 = 0; rw [h1]

theorem b2Blk_apply (c : Dev nD) (t : Fin cfg0.N) :
    (iblk m c 6 t : Vec Ideal S1 .f32) (ix1 0) = b2Arr m c (ix1 0) := by
  obtain ⟨-, -, -, -, -, -, -, -, -, -, -, h0, -⟩ := idx_facts t
  unfold iblk
  rw [View.read_apply]
  show b2Arr m c (((cfg0.win 6).blk t).view.emb (ix1 0)) = b2Arr m c (ix1 0)
  refine congrArg (b2Arr m c) (funext fun a => Fin.ext ?_)
  match a with
  | ⟨0, _⟩ => show win0_6.index t (0 : Fin 1) * 1 + 1 * 0 = 0; rw [h0]

/-! ## What each point writes back, the cover, and the array after the region -/

/-- Point `t` writes back block `t` of `scores`. -/
theorem flushed_eq (c : Dev nD) (t : Fin cfg0.N) :
    (dats m 0 c).flushed 7 t = ((cfg0.win 7).blk t).view.read (Elt Ideal) (scores m c) := by
  show (cfg0.win 7).cut (grid0.coords t) ((dats m 0 c).after 7 t) = _
  rw [after0_7]
  funext j
  rw [View.read_apply]
  obtain ⟨r, rfl⟩ : ∃ r : Fin 8192, j = ix1 r := ⟨j 0, eq_ix1 j⟩
  show out0_7 (iblk m c 0 t) (iblk m c 1 t) (iblk m c 2 t) (iblk m c 3 t) (iblk m c 4 t) (iblk m c 5 t) (iblk m c 6 t) (ix1 r)
    = scores m c (((cfg0.win 7).blk t).view.emb (ix1 r))
  refine (out_read (iblk m c 0 t) (iblk m c 1 t) (iblk m c 2 t) (iblk m c 3 t) (iblk m c 4 t) (iblk m c 5 t) (iblk m c 6 t) r).trans ?_
  have hN : t.val < 123 := Nat.lt_of_lt_of_eq t.isLt N_0
  obtain ⟨-, -, -, -, -, -, -, -, -, -, -, -, h7⟩ := idx_facts t
  have hemb : ((cfg0.win 7).blk t).view.emb (ix1 r) = ix1 (⟨t.val * 8192 + r.val, by omega⟩ : Fin 1007616) :=
    funext fun a => Fin.ext (match a with
      | ⟨0, _⟩ => by show win0_7.index t (0 : Fin 1) * 8192 + 1 * r.val = t.val * 8192 + r.val; rw [h7]; omega)
  rw [hemb]
  unfold scores
  have e0 : (fun k => (iblk m c 0 t : Vec Ideal S8192x128 .bf16) (ix2 r k)) = fun k => srcArr m c (ix2 (⟨t.val * 8192 + r.val, by omega⟩ : Fin 1007616) k) :=
    funext fun k => srcBlk_apply m c t r k _ rfl
  have e1 : (fun k => (iblk m c 1 t : Vec Ideal S8192x128 .bf16) (ix2 r k)) = fun k => dstArr m c (ix2 (⟨t.val * 8192 + r.val, by omega⟩ : Fin 1007616) k) :=
    funext fun k => dstBlk_apply m c t r k _ rfl
  have e2 : (fun j k => (iblk m c 2 t : Vec Ideal S128x128 .bf16) (ix2 k j)) = fun j k => w1sArr m c (ix2 k j) :=
    funext fun j => funext fun k => w1sBlk_apply m c t k j
  have e3 : (fun j k => (iblk m c 3 t : Vec Ideal S128x128 .bf16) (ix2 k j)) = fun j k => w1dArr m c (ix2 k j) :=
    funext fun j => funext fun k => w1dBlk_apply m c t k j
  have e4 : (fun j => (iblk m c 4 t : Vec Ideal S128 .f32) (ix1 j)) = fun j => b1Arr m c (ix1 j) :=
    funext fun j => b1Blk_apply m c t j
  have e5 : (fun j => (iblk m c 5 t : Vec Ideal S128x1 .bf16) (ix2 j 0)) = fun j => w2Arr m c (ix2 j 0) :=
    funext fun j => w2Blk_apply m c t j
  rw [e0, e1, e2, e3, e4, e5, b2Blk_apply m c t]

/-- An index of the output array is in point `t`'s block iff it lies in the block's range. -/
theorem mem_blk (t : Fin cfg0.N) (i : S1007616.Idx) :
    i ∈ ((cfg0.win 7).blk t).view.set ↔ ∀ a : Fin 1, win0_7.index t a * S8192.size a ≤ (i a).val ∧ (i a).val < win0_7.index t a * S8192.size a + S8192.size a := by
  show i ∈ ((View.whole main_v30).slice (win0_7.rect t)).set ↔ _
  rw [View.set_slice_whole, Rect.mem_set_unit]
  exact Iff.rfl

/-- Every entry of the output array is written back by the point its index divided by 8192 names. -/
theorem cover (i : S1007616.Idx) : ∃ t : Fin cfg0.N, (cfg0.win 7).flush t = true ∧ i ∈ ((cfg0.win 7).blk t).view.set := by
  have hi : (i 0).val < 1007616 := (i 0).isLt
  have hq : (i 0).val / 8192 < cfg0.N := by rw [show cfg0.N = 123 from N_0]; omega
  refine ⟨⟨(i 0).val / 8192, hq⟩, flush0_7 _, ?_⟩
  rw [mem_blk]
  obtain ⟨-, -, -, -, -, -, -, -, -, -, -, -, h7⟩ := idx_facts ⟨(i 0).val / 8192, hq⟩
  intro a
  match a with
  | ⟨0, _⟩ =>
    show win0_7.index ⟨(i 0).val / 8192, hq⟩ (0 : Fin 1) * 8192 ≤ (i 0).val ∧ (i 0).val < win0_7.index ⟨(i 0).val / 8192, hq⟩ (0 : Fin 1) * 8192 + 8192
    rw [h7]
    show (i 0).val / 8192 * 8192 ≤ (i 0).val ∧ (i 0).val < (i 0).val / 8192 * 8192 + 8192
    omega

/-- After the region the output array holds the score of every row. -/
theorem final (c : Dev nD) : (dats m 0 c).arrAt 7 cfg0.N = scores m c :=
  (dats m 0 c).arrAt_eq_of_cover 7 (scores m c) (fun t _ => flushed_eq m c t) (cover)

end Cert.KernelIdeal.ArrayValue

end
-- ==== Proof.KernelInputs.lean ====
/-
  WHAT THE KERNEL REGION FINDS IN ITS OPERAND ARRAYS.

  Before the region the program wraps negative edge endpoints around (an index below zero has the table's length added),
  gathers one table row per edge from each of the two tables (after a change of float format), appends 7616 rows of a
  padding value so that the row count 1 007 616 is 123 blocks of 8192, slices the first-layer weights into their two
  halves and transposes each, and transposes the second-layer weights into a column.  The lemmas below name those
  arrays as terms of the program's arguments.
-/
import proofs.«111208_j46815143526428_1_alg».proof.Proof.Gen.KernelIdeal.Frame
import Idealize.ShloMosaic.Lib.StableHlo.Run

set_option maxRecDepth 8192

noncomputable section

namespace Cert.KernelIdeal.Inputs

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The first half of the first-layer weights, transposed: entry (k, j) is the weight of input k for unit j. -/
theorem V_main_v22 (c : Dev nD) :
    V m c main_v22 = truncf .bf16 (transpose S128x128 [1, 0] (extractStridedSlice S128x128 ![0, 0] (m ((c : Thread nD τ).loc main_arg3)) slices_S128x256_S128x128_0_0) transposes_S128x128_S128x128_1_0) bitsLt_bf16_f32 := by
  dsimp only [V, V0]
  simp only [hostOps0, hostOps0_1, hostOps0_2, hostOps0_3, List.flatten_cons, List.flatten_nil, List.append_nil, List.cons_append, List.nil_append]
  after_results_simp <;> rfl

/-- The second half of the first-layer weights, transposed. -/
theorem V_main_v25 (c : Dev nD) :
    V m c main_v25 = truncf .bf16 (transpose S128x128 [1, 0] (extractStridedSlice S128x128 ![0, 128] (m ((c : Thread nD τ).loc main_arg3)) slices_S128x256_S128x128_0_128) transposes_S128x128_S128x128_1_0) bitsLt_bf16_f32 := by
  dsimp only [V, V0]
  simp only [hostOps0, hostOps0_1, hostOps0_2, hostOps0_3, List.flatten_cons, List.flatten_nil, List.append_nil, List.cons_append, List.nil_append]
  after_results_simp <;> rfl

/-- The second-layer weights as a column. -/
theorem V_main_v27 (c : Dev nD) :
    V m c main_v27 = truncf .bf16 (transpose S128x1 [1, 0] (m ((c : Thread nD τ).loc main_arg5)) transposes_S1x128_S128x1_1_0) bitsLt_bf16_f32 := by
  dsimp only [V, V0]
  simp only [hostOps0, hostOps0_1, hostOps0_2, hostOps0_3, List.flatten_cons, List.flatten_nil, List.append_nil, List.cons_append, List.nil_append]
  after_results_simp <;> rfl

/-- Endpoint `p` of every edge (`p = 0` the source, `p = 1` the destination), a negative one wrapped around a table of
    `n` rows, as the column of start indices the gather reads. -/
abbrev wrapped (x2 : (⟨S2x1000000, .i32⟩ : BufTy).Contents (Elt F)) (p : Nat) (n : BitVec 32) (hs : S2x1000000.Slices ![p, 0] S1x1000000) :
    (⟨S1000000x1, .i32⟩ : BufTy).Contents (Elt F) :=
  broadcastInDim S1000000x1 ![0] bcast_S1000000_S1000000x1_0
    (select (cmpi .slt (shapeCast _ (extractStridedSlice S1x1000000 ![p, 0] x2 hs) shapeCasts_S1x1000000_S1000000) (broadcastInDim S1000000 ![] bcast_S_S1000000 (constantI S_ 32 0#32)))
      (addi (shapeCast _ (extractStridedSlice S1x1000000 ![p, 0] x2 hs) shapeCasts_S1x1000000_S1000000) (broadcastInDim S1000000 ![] bcast_S_S1000000 (constantI S_ 32 n)))
      (shapeCast _ (extractStridedSlice S1x1000000 ![p, 0] x2 hs) shapeCasts_S1x1000000_S1000000))

/-- The gathered source rows, one per edge. -/
abbrev srcRows (x0 : (⟨S100000x128, .f32⟩ : BufTy).Contents (Elt F)) (x2 : (⟨S2x1000000, .i32⟩ : BufTy).Contents (Elt F)) :
    (⟨S1000000x128, .bf16⟩ : BufTy).Contents (Elt F) :=
  Host.gather gather_S100000x128_S1000000x1_S1000000x128_1_0_n_n_0_1_1128 (truncf .bf16 x0 bitsLt_bf16_f32)
    (wrapped x2 0 100000#32 slices_S2x1000000_S1x1000000_0_0)

/-- The gathered destination rows, one per edge. -/
abbrev dstRows (x1 : (⟨S50000x128, .f32⟩ : BufTy).Contents (Elt F)) (x2 : (⟨S2x1000000, .i32⟩ : BufTy).Contents (Elt F)) :
    (⟨S1000000x128, .bf16⟩ : BufTy).Contents (Elt F) :=
  Host.gather gather_S50000x128_S1000000x1_S1000000x128_1_0_n_n_0_1_1128 (truncf .bf16 x1 bitsLt_bf16_f32)
    (wrapped x2 1 50000#32 slices_S2x1000000_S1x1000000_1_0)

/-- The region's first operand: the gathered source rows with 7616 padding rows appended. -/
theorem V_main_v28 (c : Dev nD) :
    V m c main_v28 = pad S1007616x128 ![0, 0] ![7616, 0] ![0, 0] (srcRows (m ((c : Thread nD τ).loc main_arg0)) (m ((c : Thread nD τ).loc main_arg2)))
      (sitofp .bf16 (constantI S_ 32 0#32)) pads_S1000000x128_S1007616x128_076160_000 h_S_ := by
  dsimp only [V, V0]
  simp only [hostOps0, hostOps0_1, hostOps0_2, hostOps0_3, List.flatten_cons, List.flatten_nil, List.append_nil, List.cons_append, List.nil_append]
  after_results_simp <;> rfl

/-- The region's second operand: the gathered destination rows with 7616 padding rows appended. -/
theorem V_main_v29 (c : Dev nD) :
    V m c main_v29 = pad S1007616x128 ![0, 0] ![7616, 0] ![0, 0] (dstRows (m ((c : Thread nD τ).loc main_arg1)) (m ((c : Thread nD τ).loc main_arg2)))
      (sitofp .bf16 (constantI S_ 32 0#32)) pads_S1000000x128_S1007616x128_076160_000 h_S_ := by
  dsimp only [V, V0]
  simp only [hostOps0, hostOps0_1, hostOps0_2, hostOps0_3, List.flatten_cons, List.flatten_nil, List.append_nil, List.cons_append, List.nil_append]
  after_results_simp <;> rfl

end Cert.KernelIdeal.Inputs

end
-- ==== Proof.KernelResult.lean ====
/-
  THE KERNEL PROGRAM'S RESULT AS A FUNCTION OF ITS ARGUMENTS.

  After the region the program keeps the first 1 000 000 entries of the region's output vector.  Entry e of the
  output vector is the score of row e of the padded row arrays; for e below 1 000 000 that row is a gathered row, not a
  padding row.  The two transposed weight halves read at (k, j) are the first-layer weights at (j, k) and (j, 128 + k),
  the weight column at (j, 0) is the second-layer weight (0, j), and a change of float format is the identity on the
  extended reals.  So the result at e is the score of edge e written over the program's own arguments.
-/
import proofs.«111208_j46815143526428_1_alg».proof.Proof.KernelArray
import proofs.«111208_j46815143526428_1_alg».proof.Proof.KernelInputs
import Idealize.ShloMosaic.Lib.StableHlo.Run
import Idealize.ShloMosaic.Lib.KernelVsHost
import Idealize.ShloMosaic.Lib.ValueLayout

set_option maxRecDepth 16384

noncomputable section

open scoped BigOperators

namespace Cert.KernelIdeal.ResultValue

open Cert.KernelIdeal Cert.KernelIdeal.Gen Cert.KernelIdeal.ArrayValue Cert.KernelIdeal.Inputs
open Idealize.ShloMosaic Idealize.ShloMosaic.TcCoe Idealize.SL.Sem Idealize.ShloMosaic.StableHlo
open Idealize.ShloMosaic.ValueIdx Cert.EdgeScore

variable (m : (ℓ : Loc nD τ sig) → Buf (Elt Ideal) ℓ) (ρ : Dev nD → PrngReg)

/-- The score of every edge, over the program's arguments. -/
def result (x0 : (⟨S100000x128, .f32⟩ : BufTy).Contents (Elt Ideal)) (x1 : (⟨S50000x128, .f32⟩ : BufTy).Contents (Elt Ideal))
    (x2 : (⟨S2x1000000, .i32⟩ : BufTy).Contents (Elt Ideal)) (x3 : (⟨S128x256, .f32⟩ : BufTy).Contents (Elt Ideal))
    (x4 : (⟨S128, .f32⟩ : BufTy).Contents (Elt Ideal)) (x5 : (⟨S1x128, .f32⟩ : BufTy).Contents (Elt Ideal))
    (x6 : (⟨S1, .f32⟩ : BufTy).Contents (Elt Ideal)) : S1000000.Idx → EReal := fun i =>
  score (fun k => srcRows x0 x2 (ix2 (i 0) k)) (fun k => dstRows x1 x2 (ix2 (i 0) k))
    (fun j k => x3 (ix2 j ⟨k.val, by omega⟩)) (fun j k => x3 (ix2 j ⟨128 + k.val, by omega⟩))
    (fun j => x4 (ix1 j)) (fun j => x5 (ix2 0 j)) (x6 (ix1 0))

/-- A row below 1 000 000 of the padded source rows is the gathered row. -/
theorem srcArr_read (c : Dev nD) (e : Fin 1000000) (k : Fin 128) :
    srcArr m c (ix2 (⟨e.val, by omega⟩ : Fin 1007616) k)
      = srcRows (m ((c : Thread nD τ).loc main_arg0)) (m ((c : Thread nD τ).loc main_arg2)) (ix2 e k) := by
  unfold srcArr
  rw [V_main_v28]
  exact pad_apply_of_inside ![0, 0] ![7616, 0] ![0, 0] _ _ pads_S1000000x128_S1007616x128_076160_000 h_S_ _ (ix2 e k)
    (fun a => match a with
      | ⟨0, _⟩ => by show e.val = 0 + e.val * (0 + 1); omega
      | ⟨1, _⟩ => by show k.val = 0 + k.val * (0 + 1); omega)

/-- A row below 1 000 000 of the padded destination rows is the gathered row. -/
theorem dstArr_read (c : Dev nD) (e : Fin 1000000) (k : Fin 128) :
    dstArr m c (ix2 (⟨e.val, by omega⟩ : Fin 1007616) k)
      = dstRows (m ((c : Thread nD τ).loc main_arg1)) (m ((c : Thread nD τ).loc main_arg2)) (ix2 e k) := by
  unfold dstArr
  rw [V_main_v29]
  exact pad_apply_of_inside ![0, 0] ![7616, 0] ![0, 0] _ _ pads_S1000000x128_S1007616x128_076160_000 h_S_ _ (ix2 e k)
    (fun a => match a with
      | ⟨0, _⟩ => by show e.val = 0 + e.val * (0 + 1); omega
      | ⟨1, _⟩ => by show k.val = 0 + k.val * (0 + 1); omega)

/-- The first transposed weight half at (k, j) is the first-layer weight (j, k). -/
theorem w1sArr_read (c : Dev nD) (k j : Fin 128) :
    w1sArr m c (ix2 k j) = (m ((c : Thread nD τ).loc main_arg3) : S128x256.Idx → EReal) (ix2 j ⟨k.val, by omega⟩) := by
  unfold w1sArr
  rw [V_main_v22, truncf_apply, transpose_ix2_apply]
  exact slice2_axis1_apply 0 _ slices_S128x256_S128x128_0_0 j k ⟨k.val, by omega⟩ (by show k.val = 0 + k.val; omega)

/-- The second transposed weight half at (k, j) is the first-layer weight (j, 128 + k). -/
theorem w1dArr_read (c : Dev nD) (k j : Fin 128) :
    w1dArr m c (ix2 k j) = (m ((c : Thread nD τ).loc main_arg3) : S128x256.Idx → EReal) (ix2 j ⟨128 + k.val, by omega⟩) := by
  unfold w1dArr
  rw [V_main_v25, truncf_apply, transpose_ix2_apply]
  exact slice2_axis1_apply 128 _ slices_S128x256_S128x128_0_128 j k ⟨128 + k.val, by omega⟩ rfl

/-- The weight column at (j, 0) is the second-layer weight (0, j). -/
theorem w2Arr_read (c : Dev nD) (j : Fin 128) :
    w2Arr m c (ix2 j 0) = (m ((c : Thread nD τ).loc main_arg5) : S1x128.Idx → EReal) (ix2 0 j) := by
  unfold w2Arr
  rw [V_main_v27, truncf_apply, transpose_ix2_apply]

/-- The score of a row below 1 000 000 of the padded arrays is the score of that edge. -/
theorem scores_read (c : Dev nD) (e : Fin 1000000) :
    scores m c (ix1 (⟨e.val, by omega⟩ : Fin 1007616))
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix1 e) := by
  unfold scores result
  have e0 := funext fun k => srcArr_read m c e k
  have e1 := funext fun k => dstArr_read m c e k
  have e2 : (fun j k => w1sArr m c (ix2 k j)) = _ := funext fun j => funext fun k => w1sArr_read m c k j
  have e3 : (fun j k => w1dArr m c (ix2 k j)) = _ := funext fun j => funext fun k => w1dArr_read m c k j
  have e5 : (fun j => w2Arr m c (ix2 j 0)) = _ := funext fun j => w2Arr_read m c j
  have e4 : b1Arr m c = m ((c : Thread nD τ).loc main_arg4) := V_main_arg4 m c
  have e6 : b2Arr m c = m ((c : Thread nD τ).loc main_arg6) := V_main_arg6 m c
  show score (fun k => srcArr m c (ix2 (⟨e.val, _⟩ : Fin 1007616) k)) (fun k => dstArr m c (ix2 (⟨e.val, _⟩ : Fin 1007616) k)) _ _ _ _ _ = _
  rw [e0, e1, e2, e3, e5, e4, e6]

/-- What the program's result buffer holds after the lines that follow the region. -/
theorem tail_eq (c : Dev nD) :
    Pipeline.afterTail₀ cfgs (dats m) 0 (V0 m) [hostOps1] c main_v31
      = extractStridedSlice S1000000 ![0] (scores m c) slices_S1007616_S1000000_0 := by
  unfold Pipeline.afterTail₀
  show StableHlo.after hostOps1 _ (Proc.devRef .tc main_v31) = _
  after_results
  refine congrArg (fun X : S1007616.Idx → EReal => extractStridedSlice S1000000 ![0] X slices_S1007616_S1000000_0) ?_
  exact (Pipeline.withArrays_arr spec0 launch0.win.arr_inj c (V0 m c) (fun w => (dats m 0 c).arrAt w cfg0.N) 7).trans (final m c)

/-- The program's result is the score of every edge. -/
theorem result_eq (c : Dev nD) :
    Pipeline.afterTail₀ cfgs (dats m) 0 (V0 m) [hostOps1] c main_v31
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [tail_eq]
  funext i
  obtain ⟨e, rfl⟩ : ∃ e : Fin 1000000, i = ix1 e := ⟨i 0, eq_ix1 i⟩
  refine (extractStridedSlice_apply ![0] (scores m c) slices_S1007616_S1000000_0 (ix1 e) (ix1 (⟨e.val, by omega⟩ : Fin 1007616))
    (fun a => match a with | ⟨0, _⟩ => by show e.val = 0 + e.val; omega)).trans ?_
  exact scores_read m c e

/-- The run, read: every weakly fair execution ends with the result buffer at the edges' scores and the arguments
    unchanged: an argument the region stages is never written back, and no line before or after the region writes
    an argument. -/
theorem run : θ_run defs (onTc (τ := τ) (main (F := Ideal))) ⟨m, fun _ => 0, ρ⟩ (fun r => ∀ c : Dev nD,
      r.2.mem ((c.tc : Thread nD τ).loc main_v31)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v31 (Pipeline.mem_restRefs_of main_v31 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.ResultValue

end
-- ==== Proof.Bridge.lean ====
/-
  THE TWO PROGRAMS COMPUTE ONE FUNCTION OF THE ARGUMENTS.

  Both programs wrap the edge endpoints around and gather the same rows of the same tables: the kernel program changes
  the tables' float format first, which is the identity on the extended reals.  The reference then scores the joined
  row against weight rows of 256 entries, the kernel program the two rows against the two halves; the two are the
  same score (a sum over 256 positions split into its halves).
-/
import proofs.«111208_j46815143526428_1_alg».proof.Proof.ReferenceScore
import proofs.«111208_j46815143526428_1_alg».proof.Proof.KernelResult

noncomputable section

namespace Cert.Bridge

open Idealize.ShloMosaic Idealize.ShloMosaic.ValueIdx Cert.EdgeScore

variable (x0 : (⟨Cert.ReferenceIdeal.S100000x128, .f32⟩ : BufTy).Contents (Elt Ideal))
  (x1 : (⟨Cert.ReferenceIdeal.S50000x128, .f32⟩ : BufTy).Contents (Elt Ideal))
  (x2 : (⟨Cert.ReferenceIdeal.S2x1000000, .i32⟩ : BufTy).Contents (Elt Ideal))
  (x3 : (⟨Cert.ReferenceIdeal.S128x256, .f32⟩ : BufTy).Contents (Elt Ideal))
  (x4 : (⟨Cert.ReferenceIdeal.S128, .f32⟩ : BufTy).Contents (Elt Ideal))
  (x5 : (⟨Cert.ReferenceIdeal.S1x128, .f32⟩ : BufTy).Contents (Elt Ideal))
  (x6 : (⟨Cert.ReferenceIdeal.S1, .f32⟩ : BufTy).Contents (Elt Ideal))

/-- The reference's gathered source rows are the kernel program's. -/
theorem src_eq : Cert.ReferenceIdeal.Read.val_main_v10 (F := Ideal) x0 x2 = Cert.KernelIdeal.Inputs.srcRows (F := Ideal) x0 x2 := rfl

/-- The reference's gathered destination rows are the kernel program's. -/
theorem dst_eq : Cert.ReferenceIdeal.Read.val_main_v17 (F := Ideal) x1 x2 = Cert.KernelIdeal.Inputs.dstRows (F := Ideal) x1 x2 := rfl

/-- The reference's result is the kernel program's result, as functions of the arguments. -/
theorem result_agree :
    Cert.ReferenceIdeal.Read.val_main_v36 (F := Ideal) x0 x1 x2 x3 x4 x5 x6 = Cert.KernelIdeal.ResultValue.result x0 x1 x2 x3 x4 x5 x6 := by
  funext i
  rw [Cert.ReferenceIdeal.RefValue.result_read]
  unfold Cert.KernelIdeal.ResultValue.result
  show score (fun k => Cert.ReferenceIdeal.Read.val_main_v10 (F := Ideal) x0 x2 (ix2 (i 0) k))
      (fun k => Cert.ReferenceIdeal.Read.val_main_v17 (F := Ideal) x1 x2 (ix2 (i 0) k)) _ _ _ _ _ = _
  rw [src_eq, dst_eq]

end Cert.Bridge

end
-- ==== Proof.lean ====
/-
  The certificate's claims.

  The kernel program scores one million edges of a bipartite graph: it gathers a source row and a destination row per
  edge, and for each edge applies a two-layer network (128 hidden units with positive part, then one output with the
  logistic function) to the two rows, the first layer's weights split into the half that meets the source row and the
  half that meets the destination row.  The reference joins the two rows and uses the undivided weights.

  Frames: both printings of the kernel program run through their one region with every argument array unchanged (the
  generated frame); the reference is a straight line of host operations and its run leaves the arguments unchanged.
  Idealization: no rewrite was applied, so there is nothing to preserve.
  Values: on the extended reals the region's output entry e is the score of row e of its padded row arrays
  (Proof/KernelPayload.lean, Proof/KernelArray.lean), the program keeps the entries below 1 000 000, whose rows are
  gathered rows (Proof/KernelInputs.lean, Proof/KernelResult.lean); the reference's entry e is the score of the joined
  row (Proof/ReferenceScore.lean); the two scores agree because a sum over 256 positions is the sum of its two halves
  (Proof/EdgeScore.lean, Proof/Bridge.lean).  No finiteness of the inputs is used.
-/
import proofs.«111208_j46815143526428_1_alg».proof.Defs
import proofs.«111208_j46815143526428_1_alg».proof.Proof.Gen.Kernel
import proofs.«111208_j46815143526428_1_alg».proof.Proof.Gen.Kernel.Skeleton
import proofs.«111208_j46815143526428_1_alg».proof.Proof.Gen.Kernel.Launch
import proofs.«111208_j46815143526428_1_alg».proof.Proof.Gen.Kernel.Points
import proofs.«111208_j46815143526428_1_alg».proof.Proof.Gen.Kernel.Frame
import proofs.«111208_j46815143526428_1_alg».proof.Proof.Gen.KernelIdeal
import proofs.«111208_j46815143526428_1_alg».proof.Proof.Gen.KernelIdeal.Skeleton
import proofs.«111208_j46815143526428_1_alg».proof.Proof.Gen.KernelIdeal.Launch
import proofs.«111208_j46815143526428_1_alg».proof.Proof.Gen.KernelIdeal.Points
import proofs.«111208_j46815143526428_1_alg».proof.Proof.Gen.KernelIdeal.Frame
import proofs.«111208_j46815143526428_1_alg».proof.Proof.Gen.ReferenceIdeal
import proofs.«111208_j46815143526428_1_alg».proof.Proof.Gen.Pre_finite_inputs
import proofs.«111208_j46815143526428_1_alg».proof.Proof.Gen.ReferenceIdeal.Run
import proofs.«111208_j46815143526428_1_alg».proof.Proof.Gen.ReferenceIdeal.Read
import proofs.«111208_j46815143526428_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the scores of the edges in their result. -/
theorem algebraic : Cert.algebraic_KernelIdeal_ReferenceIdeal := by
  intro m ρ m' ρ' _ hagree
  refine ⟨fun c => Cert.KernelIdeal.ResultValue.result
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2.1,
    (hagree c).2.2.2.2.1, (hagree c).2.2.2.2.2.1, (hagree c).2.2.2.2.2.2]
  exact Cert.Bridge.result_agree _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
